-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S16x4096 .f32) (main_arg4 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S16384x4096 : Shape := ⟨2, ![16384, 4096]⟩
abbrev S1x4096 : Shape := ⟨2, ![1, 4096]⟩
abbrev S512x1024 : Shape := ⟨2, ![512, 1024]⟩
abbrev S1024x1024 : Shape := ⟨2, ![1024, 1024]⟩
abbrev S16x1024 : Shape := ⟨2, ![16, 1024]⟩
abbrev S1024x16 : Shape := ⟨2, ![1024, 16]⟩
abbrev S1x1024 : Shape := ⟨2, ![1, 1024]⟩
abbrev S512x16 : Shape := ⟨2, ![512, 16]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S4x4096x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1024x16, .f32⟩
  | .local _ .vmem, ⟨7, _⟩ => ⟨S1024x16, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x16, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![32, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x4096x4096_S16384x4096 : S4x4096x4096.ShapeCasts S16384x4096
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x16_S512x16_0_0 : ∀ a, (![0, 0] : Fin 2 → Nat) a + S512x16.size a ≤ S512x16.size a
  h_S512x16 : 0 < S512x16.numel
  shapeCasts_S512x16_S512x16 : S512x16.ShapeCasts S512x16
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S16x1024_S16x1024_0_0 : ∀ a, (![0, 0] : Fin 2 → Nat) a + S16x1024.size a ≤ S16x1024.size a
  h_S16x1024 : 0 < S16x1024.numel
  inb_S1024x16_S1024x16_0_0 : ∀ a, (![0, 0] : Fin 2 → Nat) a + S1024x16.size a ≤ S1024x16.size a
  h_S1024x16 : 0 < S1024x16.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x4096_S4x4096x4096 : S16384x4096.ShapeCasts S4x4096x4096
  dot_S512x1024_S1024x1024_S512x1024_1_1_0_0_n_n_wf : DotDims.WF S512x1024 S1024x1024 S512x1024 [1] [1] [0] [0] [] []
  dot_S512x1024_S16x1024_S512x16_1_1_0_0_n_n_wf : DotDims.WF S512x1024 S16x1024 S512x16 [1] [1] [0] [0] [] []
  dot_S512x16_S1024x16_S512x1024_1_1_0_0_n_n_wf : DotDims.WF S512x16 S1024x16 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x4096.size a
  hwx0_0 : ∀ i : grid0.Coords, EltTy.bits .f32 = 32 ∨ (Rect.block (s := S16384x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x4096.size a
  hwx0_5 : ∀ i : grid0.Coords, EltTy.bits .f32 = 32 ∨ (Rect.block (s := S16384x4096) S512x1024.size (cc0_transform_5 i) (hinb0_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S16x1024_S512x16_1_1_0_0_n_n : DotDims S512x1024 S16x1024 S512x16 where
  lhsContracting := [1]
  rhsContracting := [1]
  lhsNonContracting := [0]
  rhsNonContracting := [0]
  lhsBatch := []
  rhsBatch := []
  wf := dot_S512x1024_S16x1024_S512x16_1_1_0_0_n_n_wf
def dot_S512x16_S1024x16_S512x1024_1_1_0_0_n_n : DotDims S512x16 S1024x16 S512x1024 where
  lhsContracting := [1]
  rhsContracting := [1]
  lhsNonContracting := [0]
  rhsNonContracting := [0]
  lhsBatch := []
  rhsBatch := []
  wf := dot_S512x16_S1024x16_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x16, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S16x4096_S4x4096x16_2_1_01_0_n_n_wf : DotDims.WF S4x4096x4096 S16x4096 S4x4096x16 [2] [1] [0, 1] [0] [] []
  dot_S4x4096x16_S4096x16_S4x4096x4096_2_1_01_0_n_n_wf : DotDims.WF S4x4096x16 S4096x16 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S4096x16_S4x4096x4096_2_1_01_0_n_n : DotDims S4x4096x16 S4096x16 S4x4096x4096 where
  lhsContracting := [2]
  rhsContracting := [1]
  lhsNonContracting := [0, 1]
  rhsNonContracting := [0]
  lhsBatch := []
  rhsBatch := []
  wf := dot_S4x4096x16_S4096x16_S4x4096x4096_2_1_01_0_n_n_wf

class Facts : Prop extends Facts₀ where

variable [Facts]
-- ==== Proof.Pieces.lean ====
/-
  What each of the body's three control cases leaves behind, as plain values of what it loaded.

  The body keeps two running totals in scratch memory: the base product's (a 512×1024 tile) and the low-rank
  projection's (512×16).  At a point where the contracted axis starts (case A) both are first reset to zero and then
  receive the first stretch's partial products; at the later points (cases B and C) they receive the next stretch's
  partial products on top of what the previous point left.  At the last stretch (case C) the body also writes the
  output tile: the base total plus the bias row, plus twice the product of the projection total with the second
  low-rank factor.  Each lemma below reads the contents the case leaves as the corresponding arithmetic term of the
  case's inputs, for any float instance.
-/
import proofs.«132499_j39865886442050_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- Case A, the base total: zero plus the first stretch's products. -/
theorem mainA (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x16 .f32) (harg10 : arg10.IsWhole) (hc0 : cond0_0 i) (hc1 : ¬cond0_1 i) (x0 : Vec F S512x1024 .f32) (x1 : Vec F S1024x1024 .f32) (x2 : Vec F S16x1024 .f32) (x3 : Vec F S1024x16 .f32) (x4 : Vec F S1x1024 .f32) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x1024) hz]
  simp only [View.readAt_eq_ld, harg3.read_unread, harg4.read_unread, harg5.read_unread, harg6.read_unread, harg7.read_unread, harg9.read_unread, harg10.read_unread, View.readCov_unit_zero (S := S512x1024) _ hz, View.readCov_unit_zero (S := S512x16) _ hz, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

/-- Case A, the projection total: zero plus the first stretch's products. -/
theorem loraA (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x16 .f32) (harg10 : arg10.IsWhole) (hc0 : cond0_0 i) (hc1 : ¬cond0_1 i) (x0 : Vec F S512x1024 .f32) (x1 : Vec F S1024x1024 .f32) (x2 : Vec F S16x1024 .f32) (x3 : Vec F S1024x16 .f32) (x4 : Vec F S1x1024 .f32) :
    sout0_A_1 c i arg3 harg3 arg4 harg4 arg5 harg5 arg6 harg6 arg7 harg7 arg8 harg8 arg9 harg9 arg10 harg10 hc0 hc1 x0 x1 x2 x3 x4 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x16) hz]
  simp only [View.readAt_eq_ld, harg3.read_unread, harg4.read_unread, harg5.read_unread, harg6.read_unread, harg7.read_unread, harg9.read_unread, harg10.read_unread, View.readCov_unit_zero (S := S512x1024) _ hz, View.readCov_unit_zero (S := S512x16) _ hz, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

/-- Case B, the base total: the previous total plus this stretch's products. -/
theorem mainB (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x16 .f32) (harg10 : arg10.IsWhole) (hc0 : ¬cond0_0 i) (hc1 : ¬cond0_1 i) (x0 : Vec F S512x1024 .f32) (x1 : Vec F S1024x1024 .f32) (x2 : Vec F S16x1024 .f32) (x3 : Vec F S1024x16 .f32) (x4 : Vec F S1x1024 .f32) (xs0 : Vec F S512x1024 .f32) (xs1 : Vec F S512x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, View.readCov_unit_zero (S := S512x1024) _ hz, View.readCov_unit_zero (S := S512x16) _ hz, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

/-- Case B, the projection total: the previous total plus this stretch's products. -/
theorem loraB (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x16 .f32) (harg10 : arg10.IsWhole) (hc0 : ¬cond0_0 i) (hc1 : ¬cond0_1 i) (x0 : Vec F S512x1024 .f32) (x1 : Vec F S1024x1024 .f32) (x2 : Vec F S16x1024 .f32) (x3 : Vec F S1024x16 .f32) (x4 : Vec F S1x1024 .f32) (xs0 : Vec F S512x1024 .f32) (xs1 : Vec F S512x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, View.readCov_unit_zero (S := S512x1024) _ hz, View.readCov_unit_zero (S := S512x16) _ hz, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

/-- Case C, the base total: the previous total plus the last stretch's products. -/
theorem mainC (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x16 .f32) (harg10 : arg10.IsWhole) (hc0 : ¬cond0_0 i) (hc1 : cond0_1 i) (x0 : Vec F S512x1024 .f32) (x1 : Vec F S1024x1024 .f32) (x2 : Vec F S16x1024 .f32) (x3 : Vec F S1024x16 .f32) (x4 : Vec F S1x1024 .f32) (xs0 : Vec F S512x1024 .f32) (xs1 : Vec F S512x16 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.readCov_unit_zero (S := S512x1024) _ hz, View.readCov_unit_zero (S := S512x16) _ hz, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

/-- Case C, the projection total: the previous total plus the last stretch's products. -/
theorem loraC (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x16 .f32) (harg10 : arg10.IsWhole) (hc0 : ¬cond0_0 i) (hc1 : cond0_1 i) (x0 : Vec F S512x1024 .f32) (x1 : Vec F S1024x1024 .f32) (x2 : Vec F S16x1024 .f32) (x3 : Vec F S1024x16 .f32) (x4 : Vec F S1x1024 .f32) (xs0 : Vec F S512x1024 .f32) (xs1 : Vec F S512x16 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.readCov_unit_zero (S := S512x1024) _ hz, View.readCov_unit_zero (S := S512x16) _ hz, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

/-- Case C, the output tile: computed from the two totals as this point has just updated them, the second low-rank factor's tile and the bias row. -/
theorem outC (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x16 .f32) (harg10 : arg10.IsWhole) (hc0 : ¬cond0_0 i) (hc1 : cond0_1 i) (x0 : Vec F S512x1024 .f32) (x1 : Vec F S1024x1024 .f32) (x2 : Vec F S16x1024 .f32) (x3 : Vec F S1024x16 .f32) (x4 : Vec F S1x1024 .f32) (xs0 : Vec F S512x1024 .f32) (xs1 : Vec F S512x16 .f32) :
    out0_C_5 c i arg3 harg3 arg4 harg4 arg5 harg5 arg6 harg6 arg7 harg7 arg8 harg8 arg9 harg9 arg10 harg10 hc0 hc1 x0 x1 x2 x3 x4 xs0 xs1 = k0_pay6 (k0_pay5 x0 x2 xs1) x3 (k0_pay4 x0 x1 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.readCov_unit_zero (S := S512x1024) _ hz, View.readCov_unit_zero (S := S512x16) _ hz, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

end Cert.KernelIdeal.Pieces

end
-- ==== Proof.Payload.lean ====
/-
  The body's arithmetic, read one element at a time over the extended reals.

  Each of the body's three matrix products contracts the LAST axis of both operands (a product with a transposed
  right operand) into a zero accumulator, so its entry `(p, q)` is the plain sum over `k` of
  `left (p, k) * right (q, k)`; a change of float format is the identity here.  With that, the two running totals
  each grow by one stretch's dot product, and the output tile is
  `(base (p, q) + bias (0, q)) + (∑ r, proj (p, r) * b (q, r)) * 2`.
-/
import proofs.«132499_j39865886442050_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Pay

open Idealize.ShloMosaic Idealize.ShloMosaic.ValueIdx
open Cert.KernelIdeal Cert.KernelIdeal.Gen

/-! ### The base product of a stretch: a 512×1024 tile of tokens against a 1024×1024 tile of the base weight -/

theorem lhs_base_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_base_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_base_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_base_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Entry `(p, q)` of the product into a zero accumulator: row `p` of the left operand against row `q` of the right. -/
theorem mm_base {φ₁ φ₂ : FTy} (l : FVec Ideal S512x1024 φ₁) (r : FVec Ideal S1024x1024 φ₂) (p : Fin 512) (q : Fin 1024) :
    matmul dot_S512x1024_S1024x1024_S512x1024_1_1_0_0_n_n none l r (constant S512x1024 .f32 0x00000000#32) (ix2 p q)
      = ∑ k : Fin 1024, l (ix2 p k) * r (ix2 q k) := by
  refine (Ideal.matmul_constant_zero_apply dot_S512x1024_S1024x1024_S512x1024_1_1_0_0_n_n none l r (ix2 p q)).trans ?_
  rw [← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p q) ((ValueIdx.contrEquiv1 dot_S512x1024_S1024x1024_S512x1024_1_1_0_0_n_n 1024 rfl rfl).symm k) = ix2 p k := funext fun a => Fin.ext (by
    match a with
    | ⟨0, _⟩ => exact lhs_base_0 _ _
    | ⟨1, _⟩ => exact (lhs_base_1 _ _).trans hk)
  have er : dot_S512x1024_S1024x1024_S512x1024_1_1_0_0_n_n.rhsIdx (ix2 p q) ((ValueIdx.contrEquiv1 dot_S512x1024_S1024x1024_S512x1024_1_1_0_0_n_n 1024 rfl rfl).symm k) = ix2 q k := funext fun a => Fin.ext (by
    match a with
    | ⟨0, _⟩ => exact rhs_base_0 _ _
    | ⟨1, _⟩ => exact (rhs_base_1 _ _).trans hk)
  rw [el, er]

/-! ### The projection of a stretch: the same token tile against a 16×1024 tile of the first low-rank factor -/

theorem lhs_proj_0 (i : S512x16.Idx) (q : dot_S512x1024_S16x1024_S512x16_1_1_0_0_n_n.contr.Idx) :
    (dot_S512x1024_S16x1024_S512x16_1_1_0_0_n_n.lhsIdx i q 0).val = (i 0).val := by
  unfold DotDims.lhsIdx
  rw [dif_neg (show ¬(0 : Fin S512x1024.rank) ∈ dot_S512x1024_S16x1024_S512x16_1_1_0_0_n_n.lhsBatch by decide), dif_pos (show (0 : Fin S512x1024.rank) ∈ dot_S512x1024_S16x1024_S512x16_1_1_0_0_n_n.lhsNonContracting by decide)]
  rfl
theorem lhs_proj_1 (i : S512x16.Idx) (q : dot_S512x1024_S16x1024_S512x16_1_1_0_0_n_n.contr.Idx) :
    (dot_S512x1024_S16x1024_S512x16_1_1_0_0_n_n.lhsIdx i q 1).val = (q ⟨0, by decide⟩).val :=
  dot_S512x1024_S16x1024_S512x16_1_1_0_0_n_n.lhsIdx_val_of_single rfl i q
theorem rhs_proj_0 (i : S512x16.Idx) (q : dot_S512x1024_S16x1024_S512x16_1_1_0_0_n_n.contr.Idx) :
    (dot_S512x1024_S16x1024_S512x16_1_1_0_0_n_n.rhsIdx i q 0).val = (i 1).val := by
  unfold DotDims.rhsIdx
  rw [dif_neg (show ¬(0 : Fin S16x1024.rank) ∈ dot_S512x1024_S16x1024_S512x16_1_1_0_0_n_n.rhsBatch by decide), dif_pos (show (0 : Fin S16x1024.rank) ∈ dot_S512x1024_S16x1024_S512x16_1_1_0_0_n_n.rhsNonContracting by decide)]
  rfl
theorem rhs_proj_1 (i : S512x16.Idx) (q : dot_S512x1024_S16x1024_S512x16_1_1_0_0_n_n.contr.Idx) :
    (dot_S512x1024_S16x1024_S512x16_1_1_0_0_n_n.rhsIdx i q 1).val = (q ⟨0, by decide⟩).val :=
  dot_S512x1024_S16x1024_S512x16_1_1_0_0_n_n.rhsIdx_val_of_single rfl i q

/-- Entry `(p, q)` of the product into a zero accumulator: row `p` of the left operand against row `q` of the right. -/
theorem mm_proj {φ₁ φ₂ : FTy} (l : FVec Ideal S512x1024 φ₁) (r : FVec Ideal S16x1024 φ₂) (p : Fin 512) (q : Fin 16) :
    matmul dot_S512x1024_S16x1024_S512x16_1_1_0_0_n_n none l r (constant S512x16 .f32 0x00000000#32) (ix2 p q)
      = ∑ k : Fin 1024, l (ix2 p k) * r (ix2 q k) := by
  refine (Ideal.matmul_constant_zero_apply dot_S512x1024_S16x1024_S512x16_1_1_0_0_n_n none l r (ix2 p q)).trans ?_
  rw [← Equiv.sum_comp (ValueIdx.contrEquiv1 dot_S512x1024_S16x1024_S512x16_1_1_0_0_n_n 1024 rfl rfl).symm]
  refine Finset.sum_congr rfl fun k _ => ?_
  have hk := ValueIdx.contrEquiv1_symm_val dot_S512x1024_S16x1024_S512x16_1_1_0_0_n_n 1024 rfl rfl k
  have el : dot_S512x1024_S16x1024_S512x16_1_1_0_0_n_n.lhsIdx (ix2 p q) ((ValueIdx.contrEquiv1 dot_S512x1024_S16x1024_S512x16_1_1_0_0_n_n 1024 rfl rfl).symm k) = ix2 p k := funext fun a => Fin.ext (by
    match a with
    | ⟨0, _⟩ => exact lhs_proj_0 _ _
    | ⟨1, _⟩ => exact (lhs_proj_1 _ _).trans hk)
  have er : dot_S512x1024_S16x1024_S512x16_1_1_0_0_n_n.rhsIdx (ix2 p q) ((ValueIdx.contrEquiv1 dot_S512x1024_S16x1024_S512x16_1_1_0_0_n_n 1024 rfl rfl).symm k) = ix2 q k := funext fun a => Fin.ext (by
    match a with
    | ⟨0, _⟩ => exact rhs_proj_0 _ _
    | ⟨1, _⟩ => exact (rhs_proj_1 _ _).trans hk)
  rw [el, er]

/-! ### The low-rank term: the 512×16 projection against a 1024×16 tile of the second low-rank factor -/

theorem lhs_lift_0 (i : S512x1024.Idx) (q : dot_S512x16_S1024x16_S512x1024_1_1_0_0_n_n.contr.Idx) :
    (dot_S512x16_S1024x16_S512x1024_1_1_0_0_n_n.lhsIdx i q 0).val = (i 0).val := by
  unfold DotDims.lhsIdx
  rw [dif_neg (show ¬(0 : Fin S512x16.rank) ∈ dot_S512x16_S1024x16_S512x1024_1_1_0_0_n_n.lhsBatch by decide), dif_pos (show (0 : Fin S512x16.rank) ∈ dot_S512x16_S1024x16_S512x1024_1_1_0_0_n_n.lhsNonContracting by decide)]
  rfl
theorem lhs_lift_1 (i : S512x1024.Idx) (q : dot_S512x16_S1024x16_S512x1024_1_1_0_0_n_n.contr.Idx) :
    (dot_S512x16_S1024x16_S512x1024_1_1_0_0_n_n.lhsIdx i q 1).val = (q ⟨0, by decide⟩).val :=
  dot_S512x16_S1024x16_S512x1024_1_1_0_0_n_n.lhsIdx_val_of_single rfl i q
theorem rhs_lift_0 (i : S512x1024.Idx) (q : dot_S512x16_S1024x16_S512x1024_1_1_0_0_n_n.contr.Idx) :
    (dot_S512x16_S1024x16_S512x1024_1_1_0_0_n_n.rhsIdx i q 0).val = (i 1).val := by
  unfold DotDims.rhsIdx
  rw [dif_neg (show ¬(0 : Fin S1024x16.rank) ∈ dot_S512x16_S1024x16_S512x1024_1_1_0_0_n_n.rhsBatch by decide), dif_pos (show (0 : Fin S1024x16.rank) ∈ dot_S512x16_S1024x16_S512x1024_1_1_0_0_n_n.rhsNonContracting by decide)]
  rfl
theorem rhs_lift_1 (i : S512x1024.Idx) (q : dot_S512x16_S1024x16_S512x1024_1_1_0_0_n_n.contr.Idx) :
    (dot_S512x16_S1024x16_S512x1024_1_1_0_0_n_n.rhsIdx i q 1).val = (q ⟨0, by decide⟩).val :=
  dot_S512x16_S1024x16_S512x1024_1_1_0_0_n_n.rhsIdx_val_of_single rfl i q

/-- Entry `(p, q)` of the product into a zero accumulator: row `p` of the left operand against row `q` of the right. -/
theorem mm_lift {φ₁ φ₂ : FTy} (l : FVec Ideal S512x16 φ₁) (r : FVec Ideal S1024x16 φ₂) (p : Fin 512) (q : Fin 1024) :
    matmul dot_S512x16_S1024x16_S512x1024_1_1_0_0_n_n none l r (constant S512x1024 .f32 0x00000000#32) (ix2 p q)
      = ∑ k : Fin 16, l (ix2 p k) * r (ix2 q k) := by
  refine (Ideal.matmul_constant_zero_apply dot_S512x16_S1024x16_S512x1024_1_1_0_0_n_n none l r (ix2 p q)).trans ?_
  rw [← Equiv.sum_comp (ValueIdx.contrEquiv1 dot_S512x16_S1024x16_S512x1024_1_1_0_0_n_n 16 rfl rfl).symm]
  refine Finset.sum_congr rfl fun k _ => ?_
  have hk := ValueIdx.contrEquiv1_symm_val dot_S512x16_S1024x16_S512x1024_1_1_0_0_n_n 16 rfl rfl k
  have el : dot_S512x16_S1024x16_S512x1024_1_1_0_0_n_n.lhsIdx (ix2 p q) ((ValueIdx.contrEquiv1 dot_S512x16_S1024x16_S512x1024_1_1_0_0_n_n 16 rfl rfl).symm k) = ix2 p k := funext fun a => Fin.ext (by
    match a with
    | ⟨0, _⟩ => exact lhs_lift_0 _ _
    | ⟨1, _⟩ => exact (lhs_lift_1 _ _).trans hk)
  have er : dot_S512x16_S1024x16_S512x1024_1_1_0_0_n_n.rhsIdx (ix2 p q) ((ValueIdx.contrEquiv1 dot_S512x16_S1024x16_S512x1024_1_1_0_0_n_n 16 rfl rfl).symm k) = ix2 q k := funext fun a => Fin.ext (by
    match a with
    | ⟨0, _⟩ => exact rhs_lift_0 _ _
    | ⟨1, _⟩ => exact (rhs_lift_1 _ _).trans hk)
  rw [el, er]

/-! ### The payloads -/

/-- The reset value of the base total is zero everywhere. -/
theorem pay1_apply (p : Fin 512) (q : Fin 1024) : (k0_pay1 (F := Ideal)) (ix2 p q) = 0 := by
  unfold k0_pay1
  rw [shapeCast_self]
  exact Ideal.ofBits_zero_f32

/-- The reset value of the projection total is zero everywhere. -/
theorem pay2_apply (p : Fin 512) (r : Fin 16) : (k0_pay2 (F := Ideal)) (ix2 p r) = 0 := by
  unfold k0_pay2
  rw [shapeCast_self]
  exact Ideal.ofBits_zero_f32

/-- The base total after a stretch: what it was plus the stretch's dot product. -/
theorem pay4_apply (v3 : Vec Ideal S512x1024 .f32) (v6 : Vec Ideal S1024x1024 .f32) (v10 : Vec Ideal S512x1024 .f32)
    (p : Fin 512) (q : Fin 1024) :
    k0_pay4 v3 v6 v10 (ix2 p q) = v10 (ix2 p q) + ∑ k : Fin 1024, v3 (ix2 p k) * v6 (ix2 q k) := by
  unfold k0_pay4 k0_pay3
  simp only [shapeCast_self]
  refine congrArg (v10 (ix2 p q) + ·) ?_
  refine (mm_base _ _ p q).trans ?_
  rfl

/-- The projection total after a stretch: what it was plus the stretch's dot product. -/
theorem pay5_apply (v3 : Vec Ideal S512x1024 .f32) (v8 : Vec Ideal S16x1024 .f32) (v16 : Vec Ideal S512x16 .f32)
    (p : Fin 512) (r : Fin 16) :
    k0_pay5 v3 v8 v16 (ix2 p r) = v16 (ix2 p r) + ∑ k : Fin 1024, v3 (ix2 p k) * v8 (ix2 r k) := by
  unfold k0_pay5 k0_pay3
  simp only [shapeCast_self]
  refine congrArg (v16 (ix2 p r) + ·) ?_
  refine (mm_proj _ _ p r).trans ?_
  rfl

/-- The output tile: base total plus the bias row, plus twice the low-rank term. -/
theorem pay6_apply (v25 : Vec Ideal S512x16 .f32) (v27 : Vec Ideal S1024x16 .f32) (v30 : Vec Ideal S512x1024 .f32)
    (v31 : Vec Ideal S1x1024 .f32) (p : Fin 512) (q : Fin 1024) :
    k0_pay6 v25 v27 v30 v31 (ix2 p q)
      = (v30 (ix2 p q) + v31 (ix2 (0 : Fin 1) q)) + (∑ r : Fin 16, v25 (ix2 p r) * v27 (ix2 q r)) * Ideal.ofBits .f32 0x40000000#32 := by
  unfold k0_pay6
  simp only [shapeCast_self]
  refine congrArg₂ (· + ·) (congrArg (v30 (ix2 p q) + ·) ?_) (congrArg (· * Ideal.ofBits .f32 0x40000000#32) ?_)
  · exact broadcastTo_apply v31 broadcasts_S1x1024_S512x1024 (ix2 p q) (ix2 (0 : Fin 1) q) (fun a => match a with
      | ⟨0, _⟩ => by show 0 = if (1 : Nat) = 1 then 0 else p.val; rw [if_pos rfl]
      | ⟨1, _⟩ => by show q.val = if (1024 : Nat) = 1 then 0 else q.val; rw [if_neg (by decide)])
  · exact (mm_lift _ _ p q).trans rfl

end Cert.KernelIdeal.Pay

end
-- ==== Proof.Blocks.lean ====
/-
  Where each window's tile sits in its array, and what the arrays hold when the kernel starts.

  Grid point `t` (of 32·4·4 = 512, the contracted-axis coordinate fastest) has token-tile `t / 16`, output-tile
  `t / 4 % 4` and stretch `t % 4`.  Element `(p, k)` of the token window's tile is the token array's element
  `(t / 16 * 512 + p, t % 4 * 1024 + k)`, and likewise for the other four input windows.  The token array the kernel
  sees is the activations with batch and token merged into one row axis (a row-major reshape), and its bias
  array is the bias vector with a leading unit axis.
-/
import proofs.«132499_j39865886442050_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- Each window's tile index at point `t`, from `t` alone. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val % 4
    ∧ win0_3.index t (0 : Fin 2) = t.val / 4 % 4 ∧ win0_3.index t (1 : Fin 2) = 0
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val % 4
    ∧ win0_3.index t (0 : Fin 2) = t.val / 4 % 4 ∧ win0_3.index t (1 : Fin 2) = 0
    ∧ win0_4.index t (0 : Fin 2) = 0 ∧ win0_4.index t (1 : Fin 2) = t.val / 4 % 4
    ∧ win0_5.index t (0 : Fin 2) = t.val / 16 ∧ win0_5.index t (1 : Fin 2) = t.val / 4 % 4)

/-- The token window's tile at `t`: rows `t / 16 * 512 + p`, columns `t % 4 * 1024 + k` of the token array. -/
theorem tok_apply (c : Dev nD) (t : Fin cfg0.N) (p : Fin 512) (k : Fin 1024) (row : Fin 16384) (col : Fin 4096)
    (hrow : row.val = t.val / 16 * 512 + p.val) (hcol : col.val = t.val % 4 * 1024 + k.val) :
    (iblk m c 0 t : Vec F S512x1024 .f32) (ix2 p k) = V m c main_v0 (ix2 row col) := by
  obtain ⟨h0, h1, -⟩ := idx_facts t
  unfold iblk
  rw [View.read_apply]
  refine congrArg (V m c main_v0) (funext fun a => Fin.ext ?_)
  match a with
  | ⟨0, _⟩ => show win0_0.index t 0 * 512 + 1 * p.val = row.val; rw [h0, hrow]; omega
  | ⟨1, _⟩ => show win0_0.index t 1 * 1024 + 1 * k.val = col.val; rw [h1, hcol]; omega

/-- The base-weight window's tile at `t`: rows `t / 4 % 4 * 1024 + q`, columns `t % 4 * 1024 + k`. -/
theorem w_apply (c : Dev nD) (t : Fin cfg0.N) (q : Fin 1024) (k : Fin 1024) (row : Fin 4096) (col : Fin 4096)
    (hrow : row.val = t.val / 4 % 4 * 1024 + q.val) (hcol : col.val = t.val % 4 * 1024 + k.val) :
    (iblk m c 1 t : Vec F S1024x1024 .f32) (ix2 q k) = V m c main_arg1 (ix2 row col) := by
  obtain ⟨-, -, h0, h1, -⟩ := idx_facts t
  unfold iblk
  rw [View.read_apply]
  refine congrArg (V m c main_arg1) (funext fun a => Fin.ext ?_)
  match a with
  | ⟨0, _⟩ => show win0_1.index t 0 * 1024 + 1 * q.val = row.val; rw [h0, hrow]; omega
  | ⟨1, _⟩ => show win0_1.index t 1 * 1024 + 1 * k.val = col.val; rw [h1, hcol]; omega

/-- The first low-rank factor's tile at `t`: all 16 rows, columns `t % 4 * 1024 + k`. -/
theorem a_apply (c : Dev nD) (t : Fin cfg0.N) (r : Fin 16) (k : Fin 1024) (col : Fin 4096)
    (hcol : col.val = t.val % 4 * 1024 + k.val) :
    (iblk m c 2 t : Vec F S16x1024 .f32) (ix2 r k) = V m c main_arg3 (ix2 r col) := by
  obtain ⟨-, -, -, -, h0, h1, -⟩ := idx_facts t
  unfold iblk
  rw [View.read_apply]
  refine congrArg (V m c main_arg3) (funext fun a => Fin.ext ?_)
  match a with
  | ⟨0, _⟩ => show win0_2.index t 0 * 16 + 1 * r.val = r.val; rw [h0]; omega
  | ⟨1, _⟩ => show win0_2.index t 1 * 1024 + 1 * k.val = col.val; rw [h1, hcol]; omega

/-- The second low-rank factor's tile at `t`: rows `t / 4 % 4 * 1024 + q`, all 16 columns. -/
theorem b_apply (c : Dev nD) (t : Fin cfg0.N) (q : Fin 1024) (r : Fin 16) (row : Fin 4096)
    (hrow : row.val = t.val / 4 % 4 * 1024 + q.val) :
    (iblk m c 3 t : Vec F S1024x16 .f32) (ix2 q r) = V m c main_arg4 (ix2 row r) := by
  obtain ⟨-, -, -, -, -, -, h0, h1, -⟩ := idx_facts t
  unfold iblk
  rw [View.read_apply]
  refine congrArg (V m c main_arg4) (funext fun a => Fin.ext ?_)
  match a with
  | ⟨0, _⟩ => show win0_3.index t 0 * 1024 + 1 * q.val = row.val; rw [h0, hrow]; omega
  | ⟨1, _⟩ => show win0_3.index t 1 * 16 + 1 * r.val = r.val; rw [h1]; omega

/-- The bias window's tile at `t`: the one row, columns `t / 4 % 4 * 1024 + q`. -/
theorem bias_apply (c : Dev nD) (t : Fin cfg0.N) (u : Fin 1) (q : Fin 1024) (col : Fin 4096)
    (hcol : col.val = t.val / 4 % 4 * 1024 + q.val) :
    (iblk m c 4 t : Vec F S1x1024 .f32) (ix2 u q) = V m c main_v1 (ix2 u col) := by
  obtain ⟨-, -, -, -, -, -, -, -, h0, h1, -⟩ := idx_facts t
  unfold iblk
  rw [View.read_apply]
  refine congrArg (V m c main_v1) (funext fun a => Fin.ext ?_)
  match a with
  | ⟨0, _⟩ => show win0_4.index t 0 * 1 + 1 * u.val = u.val; rw [h0]; omega
  | ⟨1, _⟩ => show win0_4.index t 1 * 1024 + 1 * q.val = col.val; rw [h1, hcol]; omega

/-! ### What the arrays hold when the kernel starts -/

/-- The token array is the activations with batch and token merged row-major. -/
theorem V_tok (c : Dev nD) :
    (V m c main_v0 : S16384x4096.Idx → Elt F .f32)
      = shapeCast S16384x4096 (m ((c : Thread nD τ).loc main_arg0)) shapeCasts_S4x4096x4096_S16384x4096 := by
  show StableHlo.after hostOps0 (fun b => m (c, b)) (Proc.devRef .tc main_v0) = _
  after_results
  rfl

/-- The kernel's bias array is the bias vector under a leading unit axis. -/
theorem V_bias (c : Dev nD) :
    (V m c main_v1 : S1x4096.Idx → Elt F .f32)
      = shapeCast S1x4096 (m ((c : Thread nD τ).loc main_arg2)) shapeCasts_S4096_S1x4096 := by
  show StableHlo.after hostOps0 (fun b => m (c, b)) (Proc.devRef .tc main_v1) = _
  after_results
  rfl

/-- Row `bi * 4096 + s` of the merged array is token `(bi, s)`. -/
theorem merged_apply {α : Type} (x : S4x4096x4096.Idx → α) (row : Fin 16384) (d : Fin 4096) (bi : Fin 4) (s : Fin 4096)
    (hrow : row.val = bi.val * 4096 + s.val) :
    shapeCast S16384x4096 x shapeCasts_S4x4096x4096_S16384x4096 (ix2 row d) = x (ix3 bi s d) :=
  shapeCast_apply x shapeCasts_S4x4096x4096_S16384x4096 _ _ (by
    rw [Shape.rowMajor_val_three, Shape.rowMajor_val_two]
    show (bi.val * 4096 + s.val) * 4096 + d.val = row.val * 4096 + d.val
    rw [hrow])

/-- And the reshape back: token `(bi, s)` of the split array is row `bi * 4096 + s`. -/
theorem split_apply {α : Type} (y : S16384x4096.Idx → α) (row : Fin 16384) (o : Fin 4096) (bi : Fin 4) (s : Fin 4096)
    (hrow : row.val = bi.val * 4096 + s.val) :
    shapeCast S4x4096x4096 y shapeCasts_S16384x4096_S4x4096x4096 (ix3 bi s o) = y (ix2 row o) :=
  shapeCast_apply y shapeCasts_S16384x4096_S4x4096x4096 _ _ (by
    rw [Shape.rowMajor_val_three, Shape.rowMajor_val_two]
    show row.val * 4096 + o.val = (bi.val * 4096 + s.val) * 4096 + o.val
    rw [hrow])

end Cert.KernelIdeal.Blocks

end
-- ==== Proof.Spec.lean ====
/-
  The mathematics both programs compute, with no program in sight.

  For a token row `x : Fin 4096 → EReal`, a base weight `w`, a bias `β`, and the two low-rank factors `a`, `b`
  the result at output feature `o` is
      (∑ d, x d * w o d + β o) + (∑ r, (∑ d, x d * a r d) * b o r) * 2.
  The kernel contracts the 4096-long axis in four consecutive stretches of 1024, adding each stretch's
  partial dot product to a running total that starts from zero. Over the extended reals addition is
  commutative and associative without exception, so regrouping a sum into consecutive stretches needs no
  finiteness: `sum_stretches`.  The running total after `n + 1` stretches is a sum over `Finset.range (n + 1)`
  (`partial_zero`, `partial_succ`), and after all four it is the whole sum (`partial_four`).
-/
import Idealize.ShloMosaic.PureOps.Ideal
import Idealize.ShloMosaic.Lib.ValueIdx
import Mathlib.Algebra.BigOperators.Fin
import Mathlib.Algebra.BigOperators.Intervals

noncomputable section

namespace Cert.Lora

open Idealize.ShloMosaic

/-- Position `kk` of stretch `n` on the contracted axis: `n * 1024 + kk`. Total in `n` (reduced modulo 4096), so that
    a running total can be indexed by a bare natural number; for `n < 4` nothing is reduced (`kpos_val`). -/
def kpos (n : ℕ) (kk : Fin 1024) : Fin 4096 := ⟨(n * 1024 + kk.val) % 4096, Nat.mod_lt _ (by norm_num)⟩

theorem kpos_val (n : ℕ) (hn : n < 4) (kk : Fin 1024) : (kpos n kk).val = n * 1024 + kk.val := by
  have := kk.isLt
  show (n * 1024 + kk.val) % 4096 = _
  exact Nat.mod_eq_of_lt (by omega)

/-- The contracted axis as four stretches of 1024. -/
def stretchEquiv : Fin 4 × Fin 1024 ≃ Fin 4096 where
  toFun p := ⟨p.1.val * 1024 + p.2.val, by have := p.1.isLt; have := p.2.isLt; omega⟩
  invFun d := (⟨d.val / 1024, by have := d.isLt; omega⟩, ⟨d.val % 1024, Nat.mod_lt _ (by norm_num)⟩)
  left_inv := by
    rintro ⟨a, b⟩
    have := a.isLt; have := b.isLt
    refine Prod.ext (Fin.ext ?_) (Fin.ext ?_)
    · show (a.val * 1024 + b.val) / 1024 = a.val; omega
    · show (a.val * 1024 + b.val) % 1024 = b.val; omega
  right_inv := by
    intro d
    refine Fin.ext ?_
    show d.val / 1024 * 1024 + d.val % 1024 = d.val
    omega

theorem stretchEquiv_eq_kpos (n : Fin 4) (kk : Fin 1024) : stretchEquiv (n, kk) = kpos n.val kk :=
  Fin.ext (kpos_val n.val n.isLt kk).symm

/-- A sum over the 4096 positions is the sum, over the four stretches, of each stretch's 1024 terms. -/
theorem sum_stretches {M : Type*} [AddCommMonoid M] (f : Fin 4096 → M) :
    ∑ d : Fin 4096, f d = ∑ n : Fin 4, ∑ kk : Fin 1024, f (kpos n.val kk) := by
  rw [← Equiv.sum_comp stretchEquiv f, Fintype.sum_prod_type]
  exact Finset.sum_congr rfl fun n _ => Finset.sum_congr rfl fun kk _ => by rw [stretchEquiv_eq_kpos]

/-- The running total after stretches `0 … n`. -/
def partialSum {M : Type*} [AddCommMonoid M] (f : Fin 4096 → M) (n : ℕ) : M :=
  ∑ j ∈ Finset.range (n + 1), ∑ kk : Fin 1024, f (kpos j kk)

theorem partial_zero {M : Type*} [AddCommMonoid M] (f : Fin 4096 → M) :
    partialSum f 0 = ∑ kk : Fin 1024, f (kpos 0 kk) := by
  unfold partialSum
  rw [Finset.sum_range_one]

theorem partial_succ {M : Type*} [AddCommMonoid M] (f : Fin 4096 → M) (n : ℕ) :
    partialSum f (n + 1) = partialSum f n + ∑ kk : Fin 1024, f (kpos (n + 1) kk) := by
  unfold partialSum
  rw [Finset.sum_range_succ]

/-- After the fourth stretch the running total is the whole sum. -/
theorem partial_three {M : Type*} [AddCommMonoid M] (f : Fin 4096 → M) :
    partialSum f 3 = ∑ d : Fin 4096, f d := by
  unfold partialSum
  rw [sum_stretches, Finset.sum_range]

/-- The literal `2.0` both programs scale the low-rank term by: the same word on both sides, never evaluated. -/
abbrev two : EReal := Ideal.ofBits .f32 0x40000000#32

/-- The result at one output element, from the token's row `x`, the output feature's base-weight row `w`, its bias
    `β`, the first low-rank factor `a` (rank index first) and the output feature's row `b` of the second. -/
def out (x : Fin 4096 → EReal) (w : Fin 4096 → EReal) (β : EReal) (a : Fin 16 → Fin 4096 → EReal) (b : Fin 16 → EReal) : EReal :=
  (∑ d : Fin 4096, x d * w d + β) + (∑ r : Fin 16, (∑ d : Fin 4096, x d * a r d) * b r) * two

end Cert.Lora

end
-- ==== Proof.Totals.lean ====
/-
  What the two running totals hold after every grid point, and what the output tile holds where it is written.

  Write `t` for a grid point, `row = t / 16 * 512 + p` for a token row of its tile and `col = t / 4 % 4 * 1024 + q` for an
  output feature of its tile.  After point `t` the base total at `(p, q)` is the sum of the products
  `x (row, d) * w (col, d)` over the stretches `0 … t % 4` of the contracted axis, and the projection total at
  `(p, r)` is the same with `a (r, d)` (`totals`, by induction on the point: a point with `t % 4 = 0` starts from zero,
  any other adds its stretch to what the point before — same tiles, previous stretch — left).  At `t % 4 = 3` all four
  stretches are in, the totals are the whole dot products, and the tile written is the specification's `out`
  (`tile_eq`).
-/
import proofs.«132499_j39865886442050_1_alg».proof.Proof.Pieces
import proofs.«132499_j39865886442050_1_alg».proof.Proof.Payload
import proofs.«132499_j39865886442050_1_alg».proof.Proof.Blocks
import proofs.«132499_j39865886442050_1_alg».proof.Proof.Spec

noncomputable section

namespace Cert.KernelIdeal.Totals

open Idealize.ShloMosaic Idealize.ShloMosaic.TcCoe Idealize.SL.Sem Idealize.ShloMosaic.ValueIdx
open Cert.KernelIdeal Cert.KernelIdeal.Gen Cert.Lora

variable (m : (ℓ : Loc nD τ sig) → Buf (Elt Ideal) ℓ)

/-- The arrays as the kernel finds them, under their literal shapes. -/
abbrev tok (c : Dev nD) : S16384x4096.Idx → EReal := V m c main_v0
abbrev wgt (c : Dev nD) : S4096x4096.Idx → EReal := V m c main_arg1
abbrev fa (c : Dev nD) : S16x4096.Idx → EReal := V m c main_arg3
abbrev fb (c : Dev nD) : S4096x16.Idx → EReal := V m c main_arg4
abbrev bias (c : Dev nD) : S1x4096.Idx → EReal := V m c main_v1

/-- The tiles at a point, under their literal shapes. -/
abbrev xblk (c : Dev nD) (t : Fin cfg0.N) : Vec Ideal S512x1024 .f32 := iblk m c 0 t
abbrev wblk (c : Dev nD) (t : Fin cfg0.N) : Vec Ideal S1024x1024 .f32 := iblk m c 1 t
abbrev ablk (c : Dev nD) (t : Fin cfg0.N) : Vec Ideal S16x1024 .f32 := iblk m c 2 t
abbrev bblk (c : Dev nD) (t : Fin cfg0.N) : Vec Ideal S1024x16 .f32 := iblk m c 3 t
abbrev biasblk (c : Dev nD) (t : Fin cfg0.N) : Vec Ideal S1x1024 .f32 := iblk m c 4 t

/-- Token row `p` of point `t`'s tile, in the token array. -/
def rowIx (t : ℕ) (p : Fin 512) : Fin 16384 := ⟨t / 16 % 32 * 512 + p.val, by have := p.isLt; omega⟩
/-- Output feature `q` of point `t`'s tile. -/
def colIx (t : ℕ) (q : Fin 1024) : Fin 4096 := ⟨t / 4 % 4 * 1024 + q.val, by have := q.isLt; omega⟩

/-- The products the base total sums, along the contracted axis. -/
def baseTerm (c : Dev nD) (row : Fin 16384) (col : Fin 4096) (d : Fin 4096) : EReal :=
  tok m c (ix2 row d) * wgt m c (ix2 col d)
/-- The products the projection total sums. -/
def projTerm (c : Dev nD) (row : Fin 16384) (r : Fin 16) (d : Fin 4096) : EReal :=
  tok m c (ix2 row d) * fa m c (ix2 r d)

/-- One stretch's product terms at point `t`, base side: the tiles' entries are the arrays' entries at stretch `t % 4`. -/
theorem base_terms (c : Dev nD) (t : Fin cfg0.N) (p : Fin 512) (q : Fin 1024) (k : Fin 1024) :
    xblk m c t (ix2 p k) * wblk m c t (ix2 q k) = baseTerm m c (rowIx t.val p) (colIx t.val q) (kpos (t.val % 4) k) := by
  have hN : t.val < 512 := lt_of_lt_of_eq t.isLt (show cfg0.N = 512 from N_0)
  have hk := kpos_val (t.val % 4) (Nat.mod_lt _ (by norm_num)) k
  exact congrArg₂ (· * ·)
    (Blocks.tok_apply m c t p k (rowIx t.val p) (kpos (t.val % 4) k) (by show t.val / 16 % 32 * 512 + p.val = _; omega) hk)
    (Blocks.w_apply m c t q k (colIx t.val q) (kpos (t.val % 4) k) rfl hk)

/-- The same on the projection side. -/
theorem proj_terms (c : Dev nD) (t : Fin cfg0.N) (p : Fin 512) (r : Fin 16) (k : Fin 1024) :
    xblk m c t (ix2 p k) * ablk m c t (ix2 r k) = projTerm m c (rowIx t.val p) r (kpos (t.val % 4) k) := by
  have hN : t.val < 512 := lt_of_lt_of_eq t.isLt (show cfg0.N = 512 from N_0)
  have hk := kpos_val (t.val % 4) (Nat.mod_lt _ (by norm_num)) k
  exact congrArg₂ (· * ·)
    (Blocks.tok_apply m c t p k (rowIx t.val p) (kpos (t.val % 4) k) (by show t.val / 16 % 32 * 512 + p.val = _; omega) hk)
    (Blocks.a_apply m c t r k (kpos (t.val % 4) k) hk)

/-- A point that starts the contracted axis leaves the first stretch's sum in the base total. -/
theorem base_first (c : Dev nD) (t : Fin cfg0.N) (h0 : t.val % 4 = 0) (p : Fin 512) (q : Fin 1024) :
    k0_pay4 (xblk m c t) (wblk m c t) (k0_pay1 (F := Ideal)) (ix2 p q)
      = partialSum (baseTerm m c (rowIx t.val p) (colIx t.val q)) (t.val % 4) := by
  refine (Pay.pay4_apply (xblk m c t) (wblk m c t) (k0_pay1 (F := Ideal)) p q).trans ?_
  rw [Pay.pay1_apply, zero_add, h0, partial_zero]
  exact Finset.sum_congr rfl fun k _ => by rw [base_terms m c t p q k, h0]

theorem proj_first (c : Dev nD) (t : Fin cfg0.N) (h0 : t.val % 4 = 0) (p : Fin 512) (r : Fin 16) :
    k0_pay5 (xblk m c t) (ablk m c t) (k0_pay2 (F := Ideal)) (ix2 p r)
      = partialSum (projTerm m c (rowIx t.val p) r) (t.val % 4) := by
  refine (Pay.pay5_apply (xblk m c t) (ablk m c t) (k0_pay2 (F := Ideal)) p r).trans ?_
  rw [Pay.pay2_apply, zero_add, h0, partial_zero]
  exact Finset.sum_congr rfl fun k _ => by rw [proj_terms m c t p r k, h0]

/-- Any other point adds its stretch to what the point before left: same tiles, previous stretch. -/
theorem base_next (c : Dev nD) (t : Fin cfg0.N) (h0 : ¬t.val % 4 = 0) (prev : Vec Ideal S512x1024 .f32) (p : Fin 512) (q : Fin 1024)
    (hprev : prev (ix2 p q) = partialSum (baseTerm m c (rowIx (t.val - 1) p) (colIx (t.val - 1) q)) ((t.val - 1) % 4)) :
    k0_pay4 (xblk m c t) (wblk m c t) prev (ix2 p q)
      = partialSum (baseTerm m c (rowIx t.val p) (colIx t.val q)) (t.val % 4) := by
  have hr : rowIx (t.val - 1) p = rowIx t.val p := Fin.ext (by show (t.val - 1) / 16 % 32 * 512 + p.val = t.val / 16 % 32 * 512 + p.val; omega)
  have hc : colIx (t.val - 1) q = colIx t.val q := Fin.ext (by show (t.val - 1) / 4 % 4 * 1024 + q.val = t.val / 4 % 4 * 1024 + q.val; omega)
  have hs : t.val % 4 = (t.val - 1) % 4 + 1 := by omega
  refine (Pay.pay4_apply (xblk m c t) (wblk m c t) prev p q).trans ?_
  rw [hprev, hr, hc, hs, partial_succ, ← hs]
  exact congrArg _ (Finset.sum_congr rfl fun k _ => base_terms m c t p q k)

theorem proj_next (c : Dev nD) (t : Fin cfg0.N) (h0 : ¬t.val % 4 = 0) (prev : Vec Ideal S512x16 .f32) (p : Fin 512) (r : Fin 16)
    (hprev : prev (ix2 p r) = partialSum (projTerm m c (rowIx (t.val - 1) p) r) ((t.val - 1) % 4)) :
    k0_pay5 (xblk m c t) (ablk m c t) prev (ix2 p r)
      = partialSum (projTerm m c (rowIx t.val p) r) (t.val % 4) := by
  have hr : rowIx (t.val - 1) p = rowIx t.val p := Fin.ext (by show (t.val - 1) / 16 % 32 * 512 + p.val = t.val / 16 % 32 * 512 + p.val; omega)
  have hs : t.val % 4 = (t.val - 1) % 4 + 1 := by omega
  refine (Pay.pay5_apply (xblk m c t) (ablk m c t) prev p r).trans ?_
  rw [hprev, hr, hs, partial_succ, ← hs]
  exact congrArg _ (Finset.sum_congr rfl fun k _ => proj_terms m c t p r k)

/-- THE TOTALS after every point. -/
theorem totals (c : Dev nD) : ∀ (n : ℕ) (h : n < cfg0.N),
    (∀ (p : Fin 512) (q : Fin 1024), (outsAt0 m c n h).2.1 (ix2 p q) = partialSum (baseTerm m c (rowIx n p) (colIx n q)) (n % 4))
    ∧ (∀ (p : Fin 512) (r : Fin 16), (outsAt0 m c n h).2.2 (ix2 p r) = partialSum (projTerm m c (rowIx n p) r) (n % 4)) := by
  intro n
  induction n with
  | zero =>
    intro h
    have hA := outsAt0_A m c ⟨0, h⟩ rfl (by show ¬((0 : ℕ) % 4 = 3); omega)
    constructor
    · intro p q
      rw [hA]; dsimp only
      refine (congrFun (Pieces.mainA (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) _ _ (iblk m c 0 ⟨0, h⟩) (iblk m c 1 ⟨0, h⟩) (iblk m c 2 ⟨0, h⟩) (iblk m c 3 ⟨0, h⟩) (iblk m c 4 ⟨0, h⟩)) (ix2 p q)).trans ?_
      exact base_first m c ⟨0, h⟩ rfl p q
    · intro p r
      rw [hA]; dsimp only
      refine (congrFun (Pieces.loraA (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) _ _ (iblk m c 0 ⟨0, h⟩) (iblk m c 1 ⟨0, h⟩) (iblk m c 2 ⟨0, h⟩) (iblk m c 3 ⟨0, h⟩) (iblk m c 4 ⟨0, h⟩)) (ix2 p r)).trans ?_
      exact proj_first m c ⟨0, h⟩ rfl p r
  | succ n ih =>
    intro h
    have ih' := ih (Nat.lt_of_succ_lt h)
    by_cases h0 : (n + 1) % 4 = 0
    · have h1 : ¬(n + 1) % 4 = 3 := by omega
      have hA := outsAt0_A m c ⟨n + 1, h⟩ h0 h1
      constructor
      · intro p q
        rw [hA]; dsimp only
        refine (congrFun (Pieces.mainA (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩)) (ix2 p q)).trans ?_
        exact base_first m c ⟨n + 1, h⟩ h0 p q
      · intro p r
        rw [hA]; dsimp only
        refine (congrFun (Pieces.loraA (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩)) (ix2 p r)).trans ?_
        exact proj_first m c ⟨n + 1, h⟩ h0 p r
    · by_cases h1 : (n + 1) % 4 = 3
      · have hC := outsAt0_C m c ⟨n + 1, h⟩ h0 h1
        constructor
        · intro p q
          rw [hC]; dsimp only
          refine (congrFun (Pieces.mainC (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) _ _) (ix2 p q)).trans ?_
          exact base_next m c ⟨n + 1, h⟩ h0 _ p q (ih'.1 p q)
        · intro p r
          rw [hC]; dsimp only
          refine (congrFun (Pieces.loraC (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) _ _) (ix2 p r)).trans ?_
          exact proj_next m c ⟨n + 1, h⟩ h0 _ p r (ih'.2 p r)
      · have hB := outsAt0_B m c ⟨n + 1, h⟩ h0 h1
        constructor
        · intro p q
          rw [hB]; dsimp only
          refine (congrFun (Pieces.mainB (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) _ _) (ix2 p q)).trans ?_
          exact base_next m c ⟨n + 1, h⟩ h0 _ p q (ih'.1 p q)
        · intro p r
          rw [hB]; dsimp only
          refine (congrFun (Pieces.loraB (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) _ _) (ix2 p r)).trans ?_
          exact proj_next m c ⟨n + 1, h⟩ h0 _ p r (ih'.2 p r)

end Cert.KernelIdeal.Totals

end
-- ==== Proof.Result.lean ====
/-
  The result array both programs are proved to end with, as ONE function of the five argument arrays.

  `x` is the activations `[4, 4096, 4096]` (batch, token, feature), `w` the base weight `[4096, 4096]` (output feature
  first), `β` the bias `[4096]`, `a` and `b` the low-rank factors `[16, 4096]` and `[4096, 16]`.  Element
  `(bi, s, o)` of the result is `Cert.Lora.out` of token `(bi, s)`'s row of `x`, output feature `o`'s rows of `w` and `b`,
  its bias, and `a`.
-/
import proofs.«132499_j39865886442050_1_alg».proof.Proof.Spec

noncomputable section

namespace Cert.Lora

open Idealize.ShloMosaic Idealize.ShloMosaic.ValueIdx

abbrev SX : Shape := ⟨3, ![4, 4096, 4096]⟩
abbrev SW : Shape := ⟨2, ![4096, 4096]⟩
abbrev Sβ : Shape := ⟨1, ![4096]⟩
abbrev SA : Shape := ⟨2, ![16, 4096]⟩
abbrev SB : Shape := ⟨2, ![4096, 16]⟩

/-- The result at batch `bi`, token `s`, output feature `o`. -/
def G3 (x : SX.Idx → EReal) (w : SW.Idx → EReal) (β : Sβ.Idx → EReal) (a : SA.Idx → EReal) (b : SB.Idx → EReal)
    (bi : Fin 4) (s : Fin 4096) (o : Fin 4096) : EReal :=
  out (fun d => x (ix3 bi s d)) (fun d => w (ix2 o d)) (β (ix1 o)) (fun r d => a (ix2 r d)) (fun r => b (ix2 o r))

/-- The whole result array. -/
def G (x : SX.Idx → EReal) (w : SW.Idx → EReal) (β : Sβ.Idx → EReal) (a : SA.Idx → EReal) (b : SB.Idx → EReal) :
    SX.Idx → EReal :=
  fun i => G3 x w β a b (i 0) (i 1) (i 2)

theorem G_ix3 (x : SX.Idx → EReal) (w : SW.Idx → EReal) (β : Sβ.Idx → EReal) (a : SA.Idx → EReal) (b : SB.Idx → EReal)
    (bi : Fin 4) (s : Fin 4096) (o : Fin 4096) : G x w β a b (ix3 bi s o) = G3 x w β a b bi s o := rfl

end Cert.Lora

end
-- ==== Proof.Value.lean ====
/-
  From tiles to the result array.

  The output window writes back only at the points with `t % 4 = 3`, and then the tile `(t / 16, t / 4 % 4)`.  What it
  writes is, element by element, the specification's `out` at the corresponding token row and output feature
  (`Totals.totals` at the last stretch, `tile_eq`), so every tile is a restriction of ONE function `K2` of the arrays
  the kernel found; the 32 × 4 tiles of 512 × 1024 cover the 16384 × 4096 array (`covered`), hence the array ends at
  `K2` (`final`).  The program then splits the row axis back into batch and token; reading the token array, the
  bias row and the split through their row-major positions gives the specification's `G` of the five arguments.
-/
import proofs.«132499_j39865886442050_1_alg».proof.Proof.Totals
import proofs.«132499_j39865886442050_1_alg».proof.Proof.Result

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Totals Cert.Lora

variable (m : (ℓ : Loc nD τ sig) → Buf (Elt Ideal) ℓ) (ρ : Dev nD → PrngReg)

/-- The kernel's result at token row `row` and output feature `o`, from the arrays it found. -/
def K2fun (c : Dev nD) (row : Fin 16384) (o : Fin 4096) : EReal :=
  out (fun d => tok m c (ix2 row d)) (fun d => wgt m c (ix2 o d)) (bias m c (ix2 (0 : Fin 1) o))
    (fun r d => fa m c (ix2 r d)) (fun r => fb m c (ix2 o r))

/-- The kernel's whole result array (rows are merged batch and token). -/
def K2 (c : Dev nD) : S16384x4096.Idx → EReal := fun i => K2fun m c (i 0) (i 1)

/-- The output tile from the two totals, whatever they are. -/
theorem tile_formula (x0 : Vec Ideal S512x1024 .f32) (x1 : Vec Ideal S1024x1024 .f32) (x2 : Vec Ideal S16x1024 .f32)
    (x3 : Vec Ideal S1024x16 .f32) (x4 : Vec Ideal S1x1024 .f32) (pm : Vec Ideal S512x1024 .f32) (pl : Vec Ideal S512x16 .f32)
    (p : Fin 512) (q : Fin 1024) (M : EReal) (L : Fin 16 → EReal)
    (hM : k0_pay4 x0 x1 pm (ix2 p q) = M) (hL : ∀ r, k0_pay5 x0 x2 pl (ix2 p r) = L r) :
    k0_pay6 (k0_pay5 x0 x2 pl) x3 (k0_pay4 x0 x1 pm) x4 (ix2 p q)
      = (M + x4 (ix2 (0 : Fin 1) q)) + (∑ r : Fin 16, L r * x3 (ix2 q r)) * two := by
  refine (Pay.pay6_apply (k0_pay5 x0 x2 pl) x3 (k0_pay4 x0 x1 pm) x4 p q).trans ?_
  rw [hM]
  exact congrArg (fun z => (M + x4 (ix2 (0 : Fin 1) q)) + z * two) (Finset.sum_congr rfl fun r _ => by rw [hL r])

/-- What a point of the last stretch leaves in the output tile. -/
theorem tile_eq (c : Dev nD) (t : Fin cfg0.N) (h3 : t.val % 4 = 3) (p : Fin 512) (q : Fin 1024) :
    (outsAt0 m c t.val t.isLt).1 (ix2 p q) = K2fun m c (rowIx t.val p) (colIx t.val q) := by
  have h0 : ¬t.val % 4 = 0 := by omega
  have hN : t.val < 512 := lt_of_lt_of_eq t.isLt (show cfg0.N = 512 from N_0)
  have ih := totals m c (t.val - 1) (Nat.lt_of_le_of_lt (Nat.sub_le _ _) t.isLt)
  rw [outsAt0_C m c t h0 h3]; dsimp only
  refine (congrFun (Pieces.outC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _) (ix2 p q)).trans ?_
  refine (tile_formula (xblk m c t) (wblk m c t) (ablk m c t) (bblk m c t) (biasblk m c t) _ _ p q _ _
    (base_next m c t h0 _ p q (ih.1 p q)) (fun r => proj_next m c t h0 _ p r (ih.2 p r))).trans ?_
  unfold K2fun out
  rw [h3, partial_three]
  have hb : biasblk m c t (ix2 (0 : Fin 1) q) = bias m c (ix2 (0 : Fin 1) (colIx t.val q)) :=
    Blocks.bias_apply m c t 0 q (colIx t.val q) rfl
  have hfb : ∀ r : Fin 16, bblk m c t (ix2 q r) = fb m c (ix2 (colIx t.val q) r) := fun r =>
    Blocks.b_apply m c t q r (colIx t.val q) rfl
  rw [hb]
  refine congrArg (fun z => _ + z * two) (Finset.sum_congr rfl fun r _ => ?_)
  rw [partial_three, hfb r]
  rfl

/-- The output window's tile at a write-back point, in the result array's coordinates. -/
theorem idx5 (t : Fin cfg0.N) : win0_5.index t (0 : Fin 2) = t.val / 16 ∧ win0_5.index t (1 : Fin 2) = t.val / 4 % 4 := by
  obtain ⟨-, -, -, -, -, -, -, -, -, -, h0, h1⟩ := Blocks.idx_facts t
  exact ⟨h0, h1⟩

/-- WHAT A WRITE-BACK WRITES is its tile of `K2`. -/
theorem flushed_eq (c : Dev nD) (t : Fin cfg0.N) (hf : (cfg0.win 5).flush t = true) :
    (dats m 0 c).flushed 5 t = ((cfg0.win 5).blk t).view.read (Elt Ideal) (K2 m c) := by
  have h3 : t.val % 4 = 3 := (flush0_5 t).mp hf
  have hN : t.val < 512 := lt_of_lt_of_eq t.isLt (show cfg0.N = 512 from N_0)
  obtain ⟨e0, e1⟩ := idx5 t
  show (cfg0.win 5).cut (grid0.coords t) ((dats m 0 c).after 5 t) = _
  rw [after0_5]
  funext j
  obtain ⟨p, q, rfl⟩ : ∃ (p : Fin 512) (q : Fin 1024), j = ix2 p q := ⟨j 0, j 1, eq_ix2 (n0 := 512) (n1 := 1024) j⟩
  show (outsAt0 m c t.val t.isLt).1 (ix2 p q) = K2 m c (((cfg0.win 5).blk t).view.emb (ix2 p q))
  rw [tile_eq m c t h3 p q]
  unfold K2
  have r0 : (((cfg0.win 5).blk t).view.emb (ix2 p q)) 0 = rowIx t.val p := Fin.ext (by
    show win0_5.index t (0 : Fin 2) * 512 + 1 * p.val = t.val / 16 % 32 * 512 + p.val
    rw [e0]; omega)
  have r1 : (((cfg0.win 5).blk t).view.emb (ix2 p q)) 1 = colIx t.val q := Fin.ext (by
    show win0_5.index t (1 : Fin 2) * 1024 + 1 * q.val = t.val / 4 % 4 * 1024 + q.val
    rw [e1]; omega)
  rw [r0, r1]

/-- An index of the result array is in point `t`'s tile iff each coordinate is in the tile's range. -/
theorem mem_blk (t : Fin cfg0.N) (i : S16384x4096.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v2).slice (win0_5.rect t)).set ↔ _
  rw [View.set_slice_whole, Rect.mem_set_unit]
  exact Iff.rfl

/-- Every element of the result array lies in the tile of some write-back point. -/
theorem covered (i : S16384x4096.Idx) : ∃ t : Fin cfg0.N, (cfg0.win 5).flush t = true ∧ i ∈ ((cfg0.win 5).blk t).view.set := by
  have hi0 : (i 0).val < 16384 := (i 0).isLt
  have hi1 : (i 1).val < 4096 := (i 1).isLt
  have hN : cfg0.N = 512 := N_0
  let t : Fin cfg0.N := ⟨(i 0).val / 512 * 16 + (i 1).val / 1024 * 4 + 3, by rw [hN]; omega⟩
  have ht : t.val = (i 0).val / 512 * 16 + (i 1).val / 1024 * 4 + 3 := rfl
  obtain ⟨e0, e1⟩ := idx5 t
  refine ⟨t, (flush0_5 t).mpr (by rw [ht]; omega), ?_⟩
  rw [mem_blk]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 1024 ≤ (i 1).val ∧ (i 1).val < win0_5.index t (1 : Fin 2) * 1024 + 1024; rw [e1, ht]; omega

/-- THE RESULT ARRAY of the kernel after the run. -/
theorem final (c : Dev nD) : (dats m 0 c).arrAt 5 cfg0.N = K2 m c :=
  (dats m 0 c).arrAt_eq_of_cover 5 (K2 m c) (flushed_eq m c) covered

/-- The program's result: the kernel's array with its row axis split back into batch and token. -/
theorem tail_eq (c : Dev nD) :
    Pipeline.afterTail₀ cfgs (dats m) 0 (V0 m) [hostOps1] c main_v3
      = shapeCast S4x4096x4096 (K2 m c) shapeCasts_S16384x4096_S4x4096x4096 := by
  unfold Pipeline.afterTail₀
  show StableHlo.after hostOps1 _ (Proc.devRef .tc main_v3) = _
  after_results
  exact congrArg (fun y => shapeCast S4x4096x4096 y shapeCasts_S16384x4096_S4x4096x4096)
    ((Pipeline.withArrays_arr spec0 launch0.win.arr_inj c _ _ 5).trans (final m c))

/-- Read through the two reshapes and the bias's unit axis, that is the specification's `G` of the five arguments. -/
theorem result_eq (c : Dev nD) :
    shapeCast S4x4096x4096 (K2 m c) shapeCasts_S16384x4096_S4x4096x4096
      = G (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨bi, s, o, rfl⟩ : ∃ (bi : Fin 4) (s : Fin 4096) (o : Fin 4096), i = ix3 bi s o := ⟨i 0, i 1, i 2, eq_ix3 i⟩
  have hb := bi.isLt
  have hs := s.isLt
  let row : Fin 16384 := ⟨bi.val * 4096 + s.val, by omega⟩
  rw [G_ix3, Blocks.split_apply (K2 m c) row o bi s rfl]
  show K2fun m c row o = _
  unfold K2fun G3
  have e0 : ∀ d : Fin 4096, tok m c (ix2 row d) = m ((c : Thread nD τ).loc main_arg0) (ix3 bi s d) := fun d => by
    show V m c main_v0 (ix2 row d) = _
    rw [Blocks.V_tok m c]
    exact Blocks.merged_apply _ row d bi s rfl
  have e1 : wgt m c = m ((c : Thread nD τ).loc main_arg1) := V_main_arg1 m c
  have e3 : fa m c = m ((c : Thread nD τ).loc main_arg3) := V_main_arg3 m c
  have e4 : fb m c = m ((c : Thread nD τ).loc main_arg4) := V_main_arg4 m c
  have e2 : bias m c (ix2 (0 : Fin 1) o) = m ((c : Thread nD τ).loc main_arg2) (ix1 o) := by
    show V m c main_v1 (ix2 (0 : Fin 1) o) = _
    rw [Blocks.V_bias m c]
    exact shapeCast_a_1a_apply _ shapeCasts_S4096_S1x4096 0 o
  simp only [e0, e1, e2, e3, e4]

/-- THE RUN, read: the result at `G` of the arguments, the arguments unchanged. -/
theorem run : θ_run defs (onTc (τ := τ) (main (F := Ideal))) ⟨m, fun _ => 0, ρ⟩ fun r => ∀ c : Dev nD,
      r.2.mem ((c : Thread nD τ).loc main_v3)
          = G (m ((c : Thread nD τ).loc main_arg0)) (m ((c : Thread nD τ).loc main_arg1)) (m ((c : Thread nD τ).loc main_arg2))
              (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v3 (Pipeline.mem_restRefs_of main_v3 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.Value

end
-- ==== Proof.RefValue.lean ====
/-
  The reference, read one element at a time.

  Its ten host operations are: the base product `x · wᵀ` (contracting the feature axis), the bias broadcast over batch
  and token and added, the projection `x · aᵀ`, its product with `bᵀ`, the scaling by the constant 2, and the final sum.
  Read at element `(bi, s, o)` through the generated per-operation lemmas this is literally the specification's
  `out` of token `(bi, s)`'s row: no algebra is needed on this side, only the identification of index maps.
-/
import proofs.«132499_j39865886442050_1_alg».proof.Proof.Gen.ReferenceIdeal.Read
import proofs.«132499_j39865886442050_1_alg».proof.Proof.Result

noncomputable section

namespace Cert.ReferenceIdeal.RefValue

open Cert.ReferenceIdeal Cert.ReferenceIdeal.Read Idealize.ShloMosaic Idealize.ShloMosaic.ValueIdx

/-- The reference's result is the specification's array `G` of its arguments. -/
theorem ref_eq (x0 : (⟨S4x4096x4096, .f32⟩ : BufTy).Contents (Elt Ideal)) (x1 : (⟨S4096x4096, .f32⟩ : BufTy).Contents (Elt Ideal))
    (x2 : (⟨S4096, .f32⟩ : BufTy).Contents (Elt Ideal)) (x3 : (⟨S16x4096, .f32⟩ : BufTy).Contents (Elt Ideal))
    (x4 : (⟨S4096x16, .f32⟩ : BufTy).Contents (Elt Ideal)) :
    val_main_v8 (F := Ideal) x0 x1 x2 x3 x4 = Cert.Lora.G x0 x1 x2 x3 x4 := by
  funext i
  obtain ⟨bi, s, o, rfl⟩ : ∃ (bi : Fin 4) (s : Fin 4096) (o : Fin 4096), i = ix3 bi s o := ⟨i 0, i 1, i 2, eq_ix3 i⟩
  rw [Cert.Lora.G_ix3]
  have e1 : ∀ k, lidx_main_v0 (ix3 bi s o) k = ix3 bi s k := fun k => funext fun a => by
    match a with | ⟨0, _⟩ => rfl | ⟨1, _⟩ => rfl | ⟨2, _⟩ => rfl
  have e2 : ∀ k, ridx_main_v0 (ix3 bi s o) k = ix2 o k := fun k => funext fun a => by
    match a with | ⟨0, _⟩ => rfl | ⟨1, _⟩ => rfl
  have e3 : idx_main_v1 (idx_main_v2 (ix3 bi s o)) = ix1 o := funext fun a => by
    match a with | ⟨0, _⟩ => rfl
  have e4 : ∀ r, lidx_main_v5 (ix3 bi s o) r = ix3 bi s r := fun r => funext fun a => by
    match a with | ⟨0, _⟩ => rfl | ⟨1, _⟩ => rfl | ⟨2, _⟩ => rfl
  have e5 : ∀ r, ridx_main_v5 (ix3 bi s o) r = ix2 o r := fun r => funext fun a => by
    match a with | ⟨0, _⟩ => rfl | ⟨1, _⟩ => rfl
  have e6 : ∀ (r : Fin 16) k, lidx_main_v4 (ix3 bi s r) k = ix3 bi s k := fun r k => funext fun a => by
    match a with | ⟨0, _⟩ => rfl | ⟨1, _⟩ => rfl | ⟨2, _⟩ => rfl
  have e7 : ∀ (r : Fin 16) k, ridx_main_v4 (ix3 bi s r) k = ix2 r k := fun r k => funext fun a => by
    match a with | ⟨0, _⟩ => rfl | ⟨1, _⟩ => rfl
  rw [val_main_v8_apply, val_main_v3_apply, val_main_v0_apply, val_main_v2_apply, val_main_v1_apply, val_main_v7_apply,
    val_main_v5_apply, val_main_v6_apply, val_main_cst_apply]
  simp only [e1, e2, e3, e4, e5, val_main_v4_apply, e6, e7]
  rfl

end Cert.ReferenceIdeal.RefValue

end
-- ==== Proof.lean ====
/-
  A low-rank-adapted dense layer: `x · wᵀ + β + (x · aᵀ) · bᵀ · 2` over activations `[4, 4096, 4096]`.

  The kernel merges batch and token into 16384 rows and walks a 32 × 4 × 4 grid of (token tile, output tile,
  stretch of the contracted axis); two running totals in scratch memory collect, stretch by stretch, the base
  product and the rank-16 projection of the token tile, and at the fourth stretch the output tile is written as
  base total + bias + (projection total · bᵀ) · 2.  The reference is three contractions over the whole axis, a
  broadcast bias and the same scaling.  Over the extended reals every format change is the identity and a sum may
  be regrouped into consecutive stretches freely, so both programs end with the array `Cert.Lora.G` of their five
  arguments: the kernel by `Cert.KernelIdeal.Value.run`, the reference by its generated run and
  `Cert.ReferenceIdeal.RefValue.ref_eq`.  No finiteness of the inputs is used.  The ideal pass rewrote nothing, so
  `preserves` is `True`; the three frames are the generated frame runs.
-/
import proofs.«132499_j39865886442050_1_alg».proof.Defs
import proofs.«132499_j39865886442050_1_alg».proof.Proof.Gen.Kernel
import proofs.«132499_j39865886442050_1_alg».proof.Proof.Gen.Kernel.Skeleton
import proofs.«132499_j39865886442050_1_alg».proof.Proof.Gen.Kernel.Launch
import proofs.«132499_j39865886442050_1_alg».proof.Proof.Gen.Kernel.Points
import proofs.«132499_j39865886442050_1_alg».proof.Proof.Gen.Kernel.Frame
import proofs.«132499_j39865886442050_1_alg».proof.Proof.Gen.KernelIdeal
import proofs.«132499_j39865886442050_1_alg».proof.Proof.Gen.KernelIdeal.Skeleton
import proofs.«132499_j39865886442050_1_alg».proof.Proof.Gen.KernelIdeal.Launch
import proofs.«132499_j39865886442050_1_alg».proof.Proof.Gen.KernelIdeal.Points
import proofs.«132499_j39865886442050_1_alg».proof.Proof.Gen.KernelIdeal.Frame
import proofs.«132499_j39865886442050_1_alg».proof.Proof.Gen.ReferenceIdeal
import proofs.«132499_j39865886442050_1_alg».proof.Proof.Gen.ReferenceIdeal.Run
import proofs.«132499_j39865886442050_1_alg».proof.Proof.Gen.ReferenceIdeal.Read
import proofs.«132499_j39865886442050_1_alg».proof.Proof.Gen.Pre_finite_inputs
import proofs.«132499_j39865886442050_1_alg».proof.Proof.Value
import proofs.«132499_j39865886442050_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with `G` of arguments that agree. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
